-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel

variable [Facts]

def fn {F : FTy → Type} [FloatOps F] (main_arg0 : FVec F S2x8x2048x64 .f32) (main_arg1 : FVec F S2x8x2048x64 .f32) (main_arg2 : FVec F S2x8x2048x64 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  let main_v9 : FVec F S2x8x2048x64 .f32 := Host.absf main_arg2
  let main_cst_2 : FVec F S_ .f32 := constant S_ .f32 0x7F800000#32
  let main_v10 : FVec F S2x8x2048x64 .f32 := broadcastInDim S2x8x2048x64 ![] bcast_S_S2x8x2048x64 main_cst_2
  let main_v11 : IVec S2x8x2048x64 1 := cmpf .olt main_v9 main_v10
  let main_c_3 : IVec S_ 1 := constantI S_ 1 1#1
  let main_v12 : IVec S_ 1 := (fun x v => Host.reduce IntOp.andi x v reducesTo_S2x8x2048x64_S_d0_1_2_3 h_S_) main_v11 main_c_3
  let main_v13 : IVec S_ 1 := andi main_v8 main_v12
  main_v13
-- ==== Kernel.lean ====
abbrev S2x8x2048x64 : Shape := ⟨4, ![2, 8, 2048, 64]⟩
abbrev S16x2048x64 : Shape := ⟨3, ![16, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S64x2048 : Shape := ⟨2, ![64, 2048]⟩
abbrev S1024x2048 : Shape := ⟨2, ![1024, 2048]⟩

abbrev nBuf : Space → Nat
  | .hbm => 8
  | .vmem => 8
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S16x2048x64, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S2x8x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x8x2048x64_S16x2048x64 : S2x8x2048x64.ShapeCasts S16x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  shapeCasts_S1024x64_S1x1024x64 : S1024x64.ShapeCasts S1x1024x64
  shapeCasts_S16x2048x64_S2x8x2048x64 : S16x2048x64.ShapeCasts S2x8x2048x64
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x2048x64.size a
  hwx0_0 : ∀ i : grid0.Coords, EltTy.bits .f32 = 32 ∨ (Rect.block (s := S16x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x2048x64.size a
  hwx0_3 : ∀ i : grid0.Coords, EltTy.bits .f32 = 32 ∨ (Rect.block (s := S16x2048x64) S1x1024x64.size (cc0_transform_3 i) (hinb0_3 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x2048x64 : Shape := ⟨4, ![2, 8, 2048, 64]⟩
abbrev S2x8x2048x2048 : Shape := ⟨4, ![2, 8, 2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x2048, .f32⟩
  | .hbm, ⟨4, _⟩ => ⟨S2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S2x8x2048x64_S2x8x2048x64_S2x8x2048x2048_3_3_2_2_01_01_wf : DotDims.WF S2x8x2048x64 S2x8x2048x64 S2x8x2048x2048 [3] [3] [2] [2] [0, 1] [0, 1]
  dot_S2x8x2048x2048_S2x8x2048x64_S2x8x2048x64_3_2_2_3_01_01_wf : DotDims.WF S2x8x2048x2048 S2x8x2048x64 S2x8x2048x64 [3] [2] [2] [3] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2048x2048_S2x8x2048x64_S2x8x2048x64_3_2_2_3_01_01 : DotDims S2x8x2048x2048 S2x8x2048x64 S2x8x2048x64 where
  lhsContracting := [3]
  rhsContracting := [2]
  lhsNonContracting := [2]
  rhsNonContracting := [3]
  lhsBatch := [0, 1]
  rhsBatch := [0, 1]
  wf := dot_S2x8x2048x2048_S2x8x2048x64_S2x8x2048x64_3_2_2_3_01_01_wf

class Facts : Prop extends Facts₀ where

variable [Facts]
-- ==== Proof.AttnSpec.lean ====
/-
  The function both programs compute, over the extended reals: two chained matrix products for each
  (batch, head) pair,

      out[b, h, r, d] = Σ_j (Σ_e q[b, h, r, e] · k[b, h, j, e]) · v[b, h, j, d],

  with j over the 2048 key rows and e over the 64 features. The inner sum is the score of query row r
  against key row j; the outer sum weights the value rows by those scores. No softmax and no scaling
  enter, and the only literal on either side is the zero a sum starts from, so the two sides are the
  SAME nested sum term by term: no distributivity, no cancelling, hence no use of finiteness.

  The kernel works on arrays whose two leading axes are merged into one of extent 16 (bh = 8·b + h).
  `attn3` is the function in that layout, `attn4` in the four-axis layout, and `attn_relayout` says that
  merging the axes of the three inputs, applying `attn3` and splitting the axis of the result again is
  `attn4`: a row-major re-reading moves (b, h, r, x) to (8·b + h, r, x) and back, on every array alike.
-/
import Idealize.ShloMosaic.PureOps.Ideal
import Idealize.ShloMosaic.Lib.ValueIdx
import Idealize.ShloMosaic.Lib.Pipeline.Value

noncomputable section

open scoped BigOperators

namespace Cert.Attn

open Idealize.ShloMosaic Idealize.ShloMosaic.ValueIdx

/-- The four-axis layout [batch, head, row, feature]. -/
abbrev S4 : Shape := ⟨4, ![2, 8, 2048, 64]⟩
/-- The merged layout [batch·head, row, feature]. -/
abbrev S3 : Shape := ⟨3, ![16, 2048, 64]⟩

/-- Scores times values in the four-axis layout. -/
def attn4 (q k v : S4.Idx → EReal) : S4.Idx → EReal := fun i =>
  ∑ j : Fin 2048, (∑ e : Fin 64,
      q (ix4 (n0 := 2) (n1 := 8) (n2 := 2048) (n3 := 64) (i 0) (i 1) (i 2) e)
        * k (ix4 (n0 := 2) (n1 := 8) (n2 := 2048) (n3 := 64) (i 0) (i 1) j e))
    * v (ix4 (n0 := 2) (n1 := 8) (n2 := 2048) (n3 := 64) (i 0) (i 1) j (i 3))

/-- Scores times values in the merged layout. -/
def attn3 (q k v : S3.Idx → EReal) : S3.Idx → EReal := fun i =>
  ∑ j : Fin 2048, (∑ e : Fin 64,
      q (ix3 (n0 := 16) (n1 := 2048) (n2 := 64) (i 0) (i 1) e)
        * k (ix3 (n0 := 16) (n1 := 2048) (n2 := 64) (i 0) j e))
    * v (ix3 (n0 := 16) (n1 := 2048) (n2 := 64) (i 0) j (i 2))

/-- The merged (batch, head) coordinate. -/
def bh (b : Fin 2) (h : Fin 8) : Fin 16 := ⟨b.val * 8 + h.val, by have := b.isLt; have := h.isLt; omega⟩

/-- A merged array read at (8·b + h, r, x) is the four-axis array at (b, h, r, x): the two have the same
    row-major position. -/
theorem merged_apply (x : S4.Idx → EReal) (h43 : S4.ShapeCasts S3) (b : Fin 2) (h : Fin 8) (r : Fin 2048) (d : Fin 64) :
    shapeCast S3 x h43 (ix3 (bh b h) r d) = x (ix4 b h r d) := by
  refine shapeCast_apply x h43 _ _ ?_
  rw [Shape.rowMajor_val_three, Shape.rowMajor_val_four]
  rfl

/-- Merging the leading axes of the inputs, computing in the merged layout and splitting the result's axis again is the
    four-axis function. -/
theorem attn_relayout (q k v : S4.Idx → EReal) (h43 : S4.ShapeCasts S3) (h34 : S3.ShapeCasts S4) :
    shapeCast S4 (attn3 (shapeCast S3 q h43) (shapeCast S3 k h43) (shapeCast S3 v h43)) h34 = attn4 q k v := by
  funext i
  obtain ⟨b, h, r, d, rfl⟩ : ∃ (b : Fin 2) (h : Fin 8) (r : Fin 2048) (d : Fin 64), i = ix4 b h r d :=
    ⟨i 0, i 1, i 2, i 3, eq_ix4 i⟩
  rw [shapeCast_apply _ h34 (ix4 b h r d) (ix3 (bh b h) r d) (by
    rw [Shape.rowMajor_val_three, Shape.rowMajor_val_four]; rfl)]
  unfold attn3 attn4
  refine Finset.sum_congr rfl fun j _ => ?_
  show (∑ e : Fin 64, shapeCast S3 q h43 (ix3 (bh b h) r e) * shapeCast S3 k h43 (ix3 (bh b h) j e))
      * shapeCast S3 v h43 (ix3 (bh b h) j d) = _
  rw [merged_apply v h43 b h j d]
  refine congrArg (· * v (ix4 b h j d)) (Finset.sum_congr rfl fun e _ => ?_)
  rw [merged_apply q h43 b h r e, merged_apply k h43 b h j e]

end Cert.Attn

end
-- ==== Proof.RefAttn.lean ====
/-
  The reference's result is `attn4` of its arguments. The reference is two batched contractions: the first
  contracts the feature axis of q against the feature axis of k (the scores, [batch, head, row, key row]), the
  second contracts the scores' key-row axis against the row axis of v. Read at an index (b, h, r, d) the second is
  a sum over the key row j of score(b, h, r, j) · v(b, h, j, d), and the score is a sum over the feature e of
  q(b, h, r, e) · k(b, h, j, e): the nested sum `attn4` names, with the operand indices written by coordinates.
-/
import proofs.«100759_j56788057587918_1_alg».proof.Proof.Gen.ReferenceIdeal.Read
import proofs.«100759_j56788057587918_1_alg».proof.Proof.AttnSpec

noncomputable section

open scoped BigOperators

namespace Cert.ReferenceIdeal.RefValue

open Cert.ReferenceIdeal Cert.ReferenceIdeal.Read Idealize.ShloMosaic Idealize.ShloMosaic.ValueIdx Cert.Attn

/-- The query operand of the score at (b, h, r, j), feature e. -/
theorem score_lhs (i : S2x8x2048x64.Idx) (j : Fin 2048) (e : Fin 64) :
    lidx_main_v0 (lidx_main_v1 i j) e = ix4 (n0 := 2) (n1 := 8) (n2 := 2048) (n3 := 64) (i 0) (i 1) (i 2) e :=
  funext fun a => Fin.ext (by match a with | ⟨0, _⟩ => rfl | ⟨1, _⟩ => rfl | ⟨2, _⟩ => rfl | ⟨3, _⟩ => rfl)

/-- The key operand of the score at (b, h, r, j), feature e: key row j. -/
theorem score_rhs (i : S2x8x2048x64.Idx) (j : Fin 2048) (e : Fin 64) :
    ridx_main_v0 (lidx_main_v1 i j) e = ix4 (n0 := 2) (n1 := 8) (n2 := 2048) (n3 := 64) (i 0) (i 1) j e :=
  funext fun a => Fin.ext (by match a with | ⟨0, _⟩ => rfl | ⟨1, _⟩ => rfl | ⟨2, _⟩ => rfl | ⟨3, _⟩ => rfl)

/-- The value operand at (b, h, r, d), key row j. -/
theorem value_rhs (i : S2x8x2048x64.Idx) (j : Fin 2048) :
    ridx_main_v1 i j = ix4 (n0 := 2) (n1 := 8) (n2 := 2048) (n3 := 64) (i 0) (i 1) j (i 3) :=
  funext fun a => Fin.ext (by match a with | ⟨0, _⟩ => rfl | ⟨1, _⟩ => rfl | ⟨2, _⟩ => rfl | ⟨3, _⟩ => rfl)

/-- The reference's two contractions, read at an index, are the nested sum. -/
theorem ref_eq (q k v : S2x8x2048x64.Idx → EReal) : val_main_v1 (F := Ideal) q k v = attn4 q k v := by
  funext i
  rw [val_main_v1_apply]
  unfold attn4
  refine Finset.sum_congr rfl fun j _ => ?_
  rw [val_main_v0_apply, value_rhs]
  refine congrArg (· * v _) (Finset.sum_congr rfl fun e _ => ?_)
  rw [score_lhs, score_rhs]

end Cert.ReferenceIdeal.RefValue

end
-- ==== Proof.BlockValue.lean ====
/-
  What one grid point's body computes, read at an entry of the block it stores. The body loads a block of query
  rows [1, 1024, 64] and the whole key and value blocks [1, 2048, 64] of one (batch, head) pair, drops the leading
  unit axis of each, transposes the keys, multiplies queries by transposed keys into a zero accumulator (the scores,
  [1024, 2048]), multiplies the scores by the values into a zero accumulator ([1024, 64]) and puts the unit axis
  back. Over the extended reals the narrowings to bf16 are the identity and a product into zero is the plain sum
  over the contracted axis, so entry (0, r, d) of the stored block is

      Σ_j (Σ_e x0[0, r, e] · x1[0, j, e]) · x2[0, j, d].

  The two products are first read one at a time: each operand index of a product, coordinate by coordinate, is an
  output coordinate or the contracted one.
-/
import proofs.«100759_j56788057587918_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The score product: queries [1024, 64] by transposed keys [64, 2048] -/

theorem score_lhs_0 (j : S1024x2048.Idx) (q : dot_S1024x64_S64x2048_S1024x2048_1_0_0_1_n_n.contr.Idx) :
    (dot_S1024x64_S64x2048_S1024x2048_1_0_0_1_n_n.lhsIdx j q 0).val = (j 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem score_lhs_1 (j : S1024x2048.Idx) (q : dot_S1024x64_S64x2048_S1024x2048_1_0_0_1_n_n.contr.Idx) :
    (dot_S1024x64_S64x2048_S1024x2048_1_0_0_1_n_n.lhsIdx j q 1).val = (q ⟨0, by decide⟩).val :=
  dot_S1024x64_S64x2048_S1024x2048_1_0_0_1_n_n.lhsIdx_val_of_single rfl j q
theorem score_rhs_0 (j : S1024x2048.Idx) (q : dot_S1024x64_S64x2048_S1024x2048_1_0_0_1_n_n.contr.Idx) :
    (dot_S1024x64_S64x2048_S1024x2048_1_0_0_1_n_n.rhsIdx j q 0).val = (q ⟨0, by decide⟩).val :=
  dot_S1024x64_S64x2048_S1024x2048_1_0_0_1_n_n.rhsIdx_val_of_single rfl j q
theorem score_rhs_1 (j : S1024x2048.Idx) (q : dot_S1024x64_S64x2048_S1024x2048_1_0_0_1_n_n.contr.Idx) :
    (dot_S1024x64_S64x2048_S1024x2048_1_0_0_1_n_n.rhsIdx j q 1).val = (j 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- Entry (r, j) of the score product into zero: the sum over the feature e of Q[r, e] · KT[e, j]. -/
theorem scores_apply (Q : FVec Ideal S1024x64 .bf16) (KT : FVec Ideal S64x2048 .bf16) (r : Fin 1024) (j : Fin 2048) :
    matmul dot_S1024x64_S64x2048_S1024x2048_1_0_0_1_n_n none Q KT (constant (F := Ideal) S1024x2048 .f32 0x00000000#32) (ix2 r j)
      = ∑ e : Fin 64, Q (ix2 r e) * KT (ix2 e j) := by
  simp only [matmul]
  rw [Ideal.matmul_constant_zero_apply, ← Equiv.sum_comp (contrEquiv1 dot_S1024x64_S64x2048_S1024x2048_1_0_0_1_n_n 64 rfl rfl).symm]
  refine Finset.sum_congr rfl fun e _ => ?_
  have he := contrEquiv1_symm_val dot_S1024x64_S64x2048_S1024x2048_1_0_0_1_n_n 64 rfl rfl e
  have el : dot_S1024x64_S64x2048_S1024x2048_1_0_0_1_n_n.lhsIdx (ix2 r j) ((contrEquiv1 dot_S1024x64_S64x2048_S1024x2048_1_0_0_1_n_n 64 rfl rfl).symm e) = ix2 r e := funext fun a => Fin.ext (by
    match a with
    | ⟨0, _⟩ => exact score_lhs_0 _ _
    | ⟨1, _⟩ => exact (score_lhs_1 _ _).trans he)
  have er : dot_S1024x64_S64x2048_S1024x2048_1_0_0_1_n_n.rhsIdx (ix2 r j) ((contrEquiv1 dot_S1024x64_S64x2048_S1024x2048_1_0_0_1_n_n 64 rfl rfl).symm e) = ix2 e j := funext fun a => Fin.ext (by
    match a with
    | ⟨0, _⟩ => exact (score_rhs_0 _ _).trans he
    | ⟨1, _⟩ => exact score_rhs_1 _ _)
  rw [el, er]

/-! ## The value product: scores [1024, 2048] by values [2048, 64] -/

theorem value_lhs_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem value_lhs_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem value_rhs_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem value_rhs_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- Entry (r, d) of the value product into zero: the sum over the key row j of S[r, j] · V[j, d]. -/
theorem values_apply (S : FVec Ideal S1024x2048 .bf16) (V : FVec Ideal S2048x64 .bf16) (r : Fin 1024) (d : Fin 64) :
    matmul dot_S1024x2048_S2048x64_S1024x64_1_0_0_1_n_n none S V (constant (F := Ideal) S1024x64 .f32 0x00000000#32) (ix2 r d)
      = ∑ j : Fin 2048, S (ix2 r j) * V (ix2 j d) := by
  simp only [matmul]
  rw [Ideal.matmul_constant_zero_apply, ← Equiv.sum_comp (contrEquiv1 dot_S1024x2048_S2048x64_S1024x64_1_0_0_1_n_n 2048 rfl rfl).symm]
  refine Finset.sum_congr rfl fun j _ => ?_
  have hj := contrEquiv1_symm_val dot_S1024x2048_S2048x64_S1024x64_1_0_0_1_n_n 2048 rfl rfl j
  have el : dot_S1024x2048_S2048x64_S1024x64_1_0_0_1_n_n.lhsIdx (ix2 r d) ((contrEquiv1 dot_S1024x2048_S2048x64_S1024x64_1_0_0_1_n_n 2048 rfl rfl).symm j) = ix2 r j := funext fun a => Fin.ext (by
    match a with
    | ⟨0, _⟩ => exact value_lhs_0 _ _
    | ⟨1, _⟩ => exact (value_lhs_1 _ _).trans hj)
  have er : dot_S1024x2048_S2048x64_S1024x64_1_0_0_1_n_n.rhsIdx (ix2 r d) ((contrEquiv1 dot_S1024x2048_S2048x64_S1024x64_1_0_0_1_n_n 2048 rfl rfl).symm j) = ix2 j d := funext fun a => Fin.ext (by
    match a with
    | ⟨0, _⟩ => exact (value_rhs_0 _ _).trans hj
    | ⟨1, _⟩ => exact value_rhs_1 _ _)
  rw [el, er]

/-! ## The layout steps -/

/-- A [1, n, 64] block viewed [n, 64] reads (0, a, b) at (a, b): query rows. -/
theorem rows1024_apply (x : Vec Ideal S1x1024x64 .f32) (a : Fin 1024) (b : Fin 64) :
    shapeCast S1024x64 x shapeCasts_S1x1024x64_S1024x64 (ix2 a b) = x (ix3 (0 : Fin 1) a b) := by
  refine shapeCast_apply x _ _ _ ?_
  rw [Shape.rowMajor_val_two, Shape.rowMajor_val_three]
  show ((0 : ℕ) * 1024 + a.val) * 64 + b.val = a.val * 64 + b.val
  omega

/-- The same for the key and value blocks. -/
theorem rows2048_apply (x : Vec Ideal S1x2048x64 .f32) (a : Fin 2048) (b : Fin 64) :
    shapeCast S2048x64 x shapeCasts_S1x2048x64_S2048x64 (ix2 a b) = x (ix3 (0 : Fin 1) a b) := by
  refine shapeCast_apply x _ _ _ ?_
  rw [Shape.rowMajor_val_two, Shape.rowMajor_val_three]
  show ((0 : ℕ) * 2048 + a.val) * 64 + b.val = a.val * 64 + b.val
  omega

/-- The transposed keys at (e, j) are the keys at (j, e). -/
theorem keysT_apply (x : FVec Ideal S2048x64 .bf16) (e : Fin 64) (j : Fin 2048) :
    transpose S64x2048 [1, 0] x transposes_S2048x64_p1_0_S64x2048 (ix2 e j) = x (ix2 j e) :=
  transpose_apply [1, 0] x transposes_S2048x64_p1_0_S64x2048 (ix2 e j) (ix2 j e) (fun b => by
    match b with
    | ⟨0, _⟩ => rfl
    | ⟨1, _⟩ => rfl)

/-! ## The stored block at an entry -/

/-- Entry (z, r, d) of what the body stores, from the three loaded blocks. -/
theorem pay_apply (x0 : Vec Ideal S1x1024x64 .f32) (x1 x2 : Vec Ideal S1x2048x64 .f32) (z : Fin 1) (r : Fin 1024) (d : Fin 64) :
    k0_pay1 (F := Ideal) x0 x1 x2 (ix3 z r d)
      = ∑ j : Fin 2048, (∑ e : Fin 64, x0 (ix3 (0 : Fin 1) r e) * x1 (ix3 (0 : Fin 1) j e)) * x2 (ix3 (0 : Fin 1) j d) := by
  have hz : z.val = 0 := by have := z.isLt; omega
  unfold k0_pay1
  dsimp only
  rw [shapeCast_apply _ shapeCasts_S1024x64_S1x1024x64 (ix3 z r d) (ix2 r d) (by
    rw [Shape.rowMajor_val_two, Shape.rowMajor_val_three]
    show r.val * 64 + d.val = (z.val * 1024 + r.val) * 64 + d.val
    omega)]
  rw [values_apply]
  refine Finset.sum_congr rfl fun j _ => ?_
  rw [truncf_apply, scores_apply, truncf_apply, rows2048_apply]
  refine congrArg (· * x2 (ix3 (0 : Fin 1) j d)) (Finset.sum_congr rfl fun e _ => ?_)
  rw [truncf_apply, rows1024_apply, keysT_apply, truncf_apply, rows2048_apply]

end Cert.KernelIdeal.BlockValue

end
-- ==== Proof.KernelValue.lean ====
/-
  The kernel's result array. The grid has 16 × 2 points; point (bh, half) loads query rows
  [1024·half, 1024·half + 1024) of pair bh and ALL key and value rows of that pair, and writes rows
  [1024·half, 1024·half + 1024) of pair bh of the output. Entry (0, r, d) of the block a point stores is
  the nested sum over its loaded blocks; a loaded block read at (0, a, x) is the merged-layout array at
  (bh, offset + a, x), so the stored block is the block of `attn3` of the three merged arrays that the
  output window names. The 32 output blocks tile the [16, 2048, 64] array (row i₁ of pair i₀ lies in the
  block of point (i₀, i₁ / 1024)), so after the run the array IS `attn3` of the merged inputs. The merged
  inputs are the row-major re-readings of the arguments that the lines before the call write, and the
  line after the call re-reads the output in the four-axis layout: by `attn_relayout` the result is
  `attn4` of the arguments.
-/
import proofs.«100759_j56788057587918_1_alg».proof.Proof.Gen.KernelIdeal.Frame
import proofs.«100759_j56788057587918_1_alg».proof.Proof.BlockValue
import proofs.«100759_j56788057587918_1_alg».proof.Proof.AttnSpec
import Idealize.ShloMosaic.Lib.StableHlo.Run
import Idealize.ShloMosaic.Lib.Pipeline.Value

set_option maxRecDepth 16384

noncomputable section

open scoped BigOperators

namespace Cert.KernelIdeal.ArrayValue

open Cert.KernelIdeal Cert.KernelIdeal.Gen Cert.KernelIdeal.BlockValue Cert.Attn
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The merged query, key and value arrays as the call finds them. -/
abbrev qarr (c : Dev nD) : S16x2048x64.Idx → EReal := V m c main_v0
abbrev karr (c : Dev nD) : S16x2048x64.Idx → EReal := V m c main_v1
abbrev varr (c : Dev nD) : S16x2048x64.Idx → EReal := V m c main_v2

theorem hz3 : (![0, 0, 0] : Fin 3 → Nat) = fun _ => 0 := funext fun a => by fin_cases a <;> rfl

/-- The block indices of the four windows at a point: the query and output windows move together over
    (pair, half); the key and value windows follow the pair only; nothing moves along the features. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (0 : Fin 3) ≤ 15
    ∧ win0_3.index t (1 : Fin 3) ≤ 1
    ∧ win0_3.index t (2 : Fin 3) = 0 :=
  (by decide +kernel : ∀ t : Fin grid0.N, _)

/-- Every (pair, half) is some point's output block. -/
theorem idx_onto : ∀ (p : Fin 16) (s : Fin 2), ∃ t : Fin cfg0.N, win0_3.index t = ![p.val, s.val, 0] :=
  (by decide +kernel : ∀ (p : Fin 16) (s : Fin 2), ∃ t : Fin grid0.N, win0_3.index t = ![p.val, s.val, 0])

/-! ## The loaded blocks read where the output block says -/

/-- The query block at (0, r, e) is the merged query array at the output entry's pair and row, feature e. -/
theorem qblk_apply (c : Dev nD) (t : Fin cfg0.N) (z : Fin 1) (r : Fin 1024) (d e : Fin 64) :
    iblk m c 0 t (ix3 (0 : Fin 1) r e)
      = qarr m c (ix3 (n0 := 16) (n1 := 2048) (n2 := 64) ((((cfg0.win 3).blk t).view.emb (ix3 z r d)) 0) ((((cfg0.win 3).blk t).view.emb (ix3 z r d)) 1) e) := by
  obtain ⟨e0, e1, e2, e3, e4, e5, e6, e7, e8, e9, e10, e11⟩ := idx_facts t
  have hz : z.val = 0 := by have := z.isLt; omega
  show V m c main_v0 (((cfg0.win 0).blk t).view.emb (ix3 (0 : Fin 1) r e)) = V m c main_v0 _
  refine congrArg (V m c main_v0) (funext fun a => Fin.ext ?_)
  match a with
  | ⟨0, _⟩ => show win0_0.index t (0 : Fin 3) * 1 + 1 * 0 = win0_3.index t (0 : Fin 3) * 1 + 1 * z.val; omega
  | ⟨1, _⟩ => show win0_0.index t (1 : Fin 3) * 1024 + 1 * r.val = win0_3.index t (1 : Fin 3) * 1024 + 1 * r.val; omega
  | ⟨2, _⟩ => show win0_0.index t (2 : Fin 3) * 64 + 1 * e.val = e.val; omega

/-- The key block at (0, j, e) is the merged key array at the output entry's pair, row j, feature e. -/
theorem kblk_apply (c : Dev nD) (t : Fin cfg0.N) (z : Fin 1) (r : Fin 1024) (d : Fin 64) (j : Fin 2048) (e : Fin 64) :
    iblk m c 1 t (ix3 (0 : Fin 1) j e)
      = karr m c (ix3 (n0 := 16) (n1 := 2048) (n2 := 64) ((((cfg0.win 3).blk t).view.emb (ix3 z r d)) 0) j e) := by
  obtain ⟨e0, e1, e2, e3, e4, e5, e6, e7, e8, e9, e10, e11⟩ := idx_facts t
  have hz : z.val = 0 := by have := z.isLt; omega
  show V m c main_v1 (((cfg0.win 1).blk t).view.emb (ix3 (0 : Fin 1) j e)) = V m c main_v1 _
  refine congrArg (V m c main_v1) (funext fun a => Fin.ext ?_)
  match a with
  | ⟨0, _⟩ => show win0_1.index t (0 : Fin 3) * 1 + 1 * 0 = win0_3.index t (0 : Fin 3) * 1 + 1 * z.val; omega
  | ⟨1, _⟩ => show win0_1.index t (1 : Fin 3) * 2048 + 1 * j.val = j.val; omega
  | ⟨2, _⟩ => show win0_1.index t (2 : Fin 3) * 64 + 1 * e.val = e.val; omega

/-- The value block at (0, j, d) is the merged value array at the output entry's pair, row j, and feature. -/
theorem vblk_apply (c : Dev nD) (t : Fin cfg0.N) (z : Fin 1) (r : Fin 1024) (d : Fin 64) (j : Fin 2048) :
    iblk m c 2 t (ix3 (0 : Fin 1) j d)
      = varr m c (ix3 (n0 := 16) (n1 := 2048) (n2 := 64) ((((cfg0.win 3).blk t).view.emb (ix3 z r d)) 0) j ((((cfg0.win 3).blk t).view.emb (ix3 z r d)) 2)) := by
  obtain ⟨e0, e1, e2, e3, e4, e5, e6, e7, e8, e9, e10, e11⟩ := idx_facts t
  have hz : z.val = 0 := by have := z.isLt; omega
  show V m c main_v2 (((cfg0.win 2).blk t).view.emb (ix3 (0 : Fin 1) j d)) = V m c main_v2 _
  refine congrArg (V m c main_v2) (funext fun a => Fin.ext ?_)
  match a with
  | ⟨0, _⟩ => show win0_2.index t (0 : Fin 3) * 1 + 1 * 0 = win0_3.index t (0 : Fin 3) * 1 + 1 * z.val; omega
  | ⟨1, _⟩ => show win0_2.index t (1 : Fin 3) * 2048 + 1 * j.val = j.val; omega
  | ⟨2, _⟩ => show win0_2.index t (2 : Fin 3) * 64 + 1 * d.val = win0_3.index t (2 : Fin 3) * 64 + 1 * d.val; omega

/-! ## What a point writes back -/

/-- Point `t` writes back block `t` of `attn3` of the merged arrays. -/
theorem flushed_eq (c : Dev nD) (t : Fin cfg0.N) :
    (dats m 0 c).flushed 3 t = ((cfg0.win 3).blk t).view.read (Elt Ideal) (attn3 (qarr m c) (karr m c) (varr m c)) := by
  show (cfg0.win 3).cut (grid0.coords t) ((dats m 0 c).after 3 t) = _
  rw [after0_3]
  unfold out0_3
  rw [View.canon_unit_zero hz3]
  simp only [View.ld_unit_zero (S := S1x1024x64) hz3, View.ld_unit_zero (S := S1x2048x64) hz3]
  funext y
  obtain ⟨z, r, d, rfl⟩ : ∃ (z : Fin 1) (r : Fin 1024) (d : Fin 64), y = ix3 z r d := ⟨y 0, y 1, y 2, eq_ix3 y⟩
  show k0_pay1 (F := Ideal) (iblk m c 0 t) (iblk m c 1 t) (iblk m c 2 t) (ix3 z r d)
    = attn3 (qarr m c) (karr m c) (varr m c) (((cfg0.win 3).blk t).view.emb (ix3 z r d))
  refine (pay_apply (iblk m c 0 t) (iblk m c 1 t) (iblk m c 2 t) z r d).trans ?_
  unfold attn3
  refine Finset.sum_congr rfl fun j _ => ?_
  refine congrArg₂ (· * ·) (Finset.sum_congr rfl fun e _ => ?_) (vblk_apply m c t z r d j)
  exact congrArg₂ (· * ·) (qblk_apply m c t z r d e) (kblk_apply m c t z r d j e)

/-! ## The blocks tile the array -/

theorem mem_blk (t : Fin cfg0.N) (i : S16x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v3).slice (win0_3.rect t)).set ↔ _
  rw [View.set_slice_whole, Rect.mem_set_unit]
  exact Iff.rfl

/-- Entry (i₀, i₁, i₂) lies in the output block of the point with pair i₀ and half i₁ / 1024. -/
theorem covered (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The output array after the run is `attn3` of the merged arrays. -/
theorem final (c : Dev nD) : (dats m 0 c).arrAt 3 cfg0.N = attn3 (qarr m c) (karr m c) (varr m c) :=
  (dats m 0 c).arrAt_eq_of_cover 3 _ (fun t _ => flushed_eq m c t) covered

/-! ## The lines before and after the call -/

theorem qarr_eq (c : Dev nD) : qarr m c = shapeCast S16x2048x64 (m ((c : Thread nD τ).loc main_arg0)) shapeCasts_S2x8x2048x64_S16x2048x64 := by
  show StableHlo.after hostOps0 (fun b => m (c, b)) (Proc.devRef .tc main_v0) = _
  after_results
  rfl
theorem karr_eq (c : Dev nD) : karr m c = shapeCast S16x2048x64 (m ((c : Thread nD τ).loc main_arg1)) shapeCasts_S2x8x2048x64_S16x2048x64 := by
  show StableHlo.after hostOps0 (fun b => m (c, b)) (Proc.devRef .tc main_v1) = _
  after_results
  rfl
theorem varr_eq (c : Dev nD) : varr m c = shapeCast S16x2048x64 (m ((c : Thread nD τ).loc main_arg2)) shapeCasts_S2x8x2048x64_S16x2048x64 := by
  show StableHlo.after hostOps0 (fun b => m (c, b)) (Proc.devRef .tc main_v2) = _
  after_results
  rfl

/-- The program's result: the output array re-read in the four-axis layout is `attn4` of the arguments. -/
theorem result_eq (c : Dev nD) :
    Pipeline.afterTail₀ cfgs (dats m) 0 (V0 m) [hostOps1] c main_v4
      = attn4 (m ((c : Thread nD τ).loc main_arg0)) (m ((c : Thread nD τ).loc main_arg1)) (m ((c : Thread nD τ).loc main_arg2)) := by
  have hW : Pipeline.withArrays spec0 c (V0 m c) (fun w => (dats m 0 c).arrAt w cfg0.N) (Proc.devRef .tc main_v3)
      = attn3 (shapeCast S16x2048x64 (m ((c : Thread nD τ).loc main_arg0)) shapeCasts_S2x8x2048x64_S16x2048x64)
          (shapeCast S16x2048x64 (m ((c : Thread nD τ).loc main_arg1)) shapeCasts_S2x8x2048x64_S16x2048x64)
          (shapeCast S16x2048x64 (m ((c : Thread nD τ).loc main_arg2)) shapeCasts_S2x8x2048x64_S16x2048x64) := by
    refine ((Pipeline.withArrays_arr spec0 launch0.win.arr_inj c _ _ 3).trans (final m c)).trans ?_
    rw [qarr_eq, karr_eq, varr_eq]
  unfold Pipeline.afterTail₀
  show StableHlo.after hostOps1 _ (Proc.devRef .tc main_v4) = _
  after_results
  show shapeCast S2x8x2048x64 (Pipeline.withArrays spec0 c (V0 m c) (fun w => (dats m 0 c).arrAt w cfg0.N) (Proc.devRef .tc main_v3))
      shapeCasts_S16x2048x64_S2x8x2048x64 = _
  rw [hW]
  exact attn_relayout _ _ _ _ _

/-! ## The run, read -/

/-- Every weakly fair execution of the program terminates with its result at `attn4` of the arguments and the
    arguments unchanged. -/
theorem run : θ_run defs (onTc (τ := τ) (main (F := Ideal))) ⟨m, fun _ => 0, ρ⟩ fun r => ∀ c : Dev nD,
      r.2.mem ((c.tc : Thread nD τ).loc main_v4)
        = attn4 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.ArrayValue

end
-- ==== Proof.lean ====
/-
  Attention without softmax or scaling, over the extended reals: for queries, keys and values of shape
  [2, 8, 2048, 64] the result is, for each (batch, head) pair, scores times values,

      out[b, h, r, d] = Σ_j (Σ_e q[b, h, r, e] · k[b, h, j, e]) · v[b, h, j, d].

  The reference states this as two batched contractions. The kernel merges the two leading axes, walks a
  16 × 2 grid of (pair, half of the query rows), and at each point multiplies a [1024, 64] block of queries
  by the transposed [2048, 64] keys of the pair and the [1024, 2048] scores by the [2048, 64] values, each
  product into a zero accumulator; its narrowings to bf16 are the identity on extended reals. Both sides are
  therefore the SAME nested sum, term by term and in the same grouping: the equality needs no distributivity
  and no cancelling, and so never uses that the inputs are finite.

  The pieces: `Cert.Attn.attn4` / `attn3` name the function in the four-axis and in the merged layout and
  `attn_relayout` joins the two layouts (Proof/AttnSpec.lean); the reference's two contractions read at an
  index are `attn4` (Proof/RefAttn.lean); one grid point's stored block at an entry is the nested sum over
  its loaded blocks (Proof/BlockValue.lean); the 32 stored blocks tile the output array, which therefore ends
  at `attn3` of the merged inputs, and the re-readings around the call make that `attn4` of the arguments
  (Proof/KernelValue.lean). The idealization rewrote no operation, so `preserves` has nothing to say.
-/
import proofs.«100759_j56788057587918_1_alg».proof.Defs
import proofs.«100759_j56788057587918_1_alg».proof.Proof.Gen.Kernel
import proofs.«100759_j56788057587918_1_alg».proof.Proof.Gen.Kernel.Skeleton
import proofs.«100759_j56788057587918_1_alg».proof.Proof.Gen.Kernel.Launch
import proofs.«100759_j56788057587918_1_alg».proof.Proof.Gen.Kernel.Points
import proofs.«100759_j56788057587918_1_alg».proof.Proof.Gen.Kernel.Frame
import proofs.«100759_j56788057587918_1_alg».proof.Proof.Gen.KernelIdeal
import proofs.«100759_j56788057587918_1_alg».proof.Proof.Gen.KernelIdeal.Skeleton
import proofs.«100759_j56788057587918_1_alg».proof.Proof.Gen.KernelIdeal.Launch
import proofs.«100759_j56788057587918_1_alg».proof.Proof.Gen.KernelIdeal.Points
import proofs.«100759_j56788057587918_1_alg».proof.Proof.Gen.KernelIdeal.Frame
import proofs.«100759_j56788057587918_1_alg».proof.Proof.Gen.ReferenceIdeal
import proofs.«100759_j56788057587918_1_alg».proof.Proof.Gen.ReferenceIdeal.Run
import proofs.«100759_j56788057587918_1_alg».proof.Proof.Gen.ReferenceIdeal.Read
import proofs.«100759_j56788057587918_1_alg».proof.Proof.Gen.Pre_finite_inputs
import Idealize.ShloMosaic.Adequacy
import Idealize.ShloMosaic.Init

import proofs.«100759_j56788057587918_1_alg».proof.Proof.RefAttn
import proofs.«100759_j56788057587918_1_alg».proof.Proof.KernelValue

noncomputable section

namespace Cert.Proof

open Idealize.ShloMosaic Idealize.SL.Sem Cert.Attn

/-- The kernel as printed terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is two host contractions: its run terminates with the arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on q, k and v both programs end with the result at `attn4 q k v`: the kernel by
    its tiled blocks, the reference by its two contractions read at an index. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.RefValue.ref_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
